-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 90
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S128x128, .bf16⟩
  | .hbm, ⟨48, _⟩ => ⟨S128x64, .bf16⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .bf16⟩
  | .local _ .vmem, ⟨8, _⟩ => ⟨S2000x64, .f32⟩
  | .local _ .vmem, ⟨9, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_cst : Ref sig .tc := ⟨.hbm, 68, rfl⟩
abbrev main_call2_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Products.lean ====
/-
  The dense layer both programs compute, as one function of whole arrays on the extended reals: the product of a
  `[100000, 128]` array of node features with a `[128, p]` array of weights, entry by entry a sum of 128 products.
  A sum of finitely many extended reals does not depend on the order or the grouping of its terms, so a product
  taken 2000 rows at a time and a product taken whole are this same function.
-/
import Idealize.ShloMosaic.Lib.ValueIdx
import Idealize.ShloMosaic.PureOps.Ideal.Laws

noncomputable section

namespace Cert.Products

open Idealize.ShloMosaic Idealize.ShloMosaic.ValueIdx

/-- Entry `(r, j)` of `x · w` for `x : [100000, 128]` and `w : [128, 128]`: the sum over `k` of `x r k * w k j`. -/
def prod128 (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (i 0) k) * w (ix2 k (i 1))

/-- Entry `(r, j)` of `x · w` for `x : [100000, 128]` and `w : [128, 64]`: the sum over `k` of `x r k * w k j`. -/
def prod64 (x : (⟨2, ![100000, 128]⟩ : Shape).Idx → EReal) (w : (⟨2, ![128, 64]⟩ : Shape).Idx → EReal) :
    (⟨2, ![100000, 64]⟩ : Shape).Idx → EReal :=
  fun i => ∑ k : Fin 128, x (ix2 (i 0) k) * w (ix2 k (i 1))

end Cert.Products

end
-- ==== Proof.Layers.lean ====
/-
  The graph-convolution layer as pure functions of whole arrays, in the operations the two programs' host parts
  spell it with, for any float family.

  From the edge list `e : [2, 1600000]` both programs form the 1700000 sources `src` (row 0, then one self loop
  `0 … 99999` per node) and destinations `dst` (row 1, then the same self loops); the degree of a node is the
  number of edges that end in it (a scatter-add of ones along `dst`), `dinv` is its inverse square root where
  the degree is positive and zero elsewhere, and the weight of edge `k` is `dinv (src k) * dinv (dst k)`, kept as
  a column `[1700000, 1]`. A negative index is first moved up by 100000, as array indexing does.

  One layer takes node features `h : [100000, p]`, gathers row `src k` for each edge, scales it by the edge's
  weight, scatter-adds the scaled rows along `dst`, and adds the bias to every row. The first layer is followed by
  a maximum with zero.
-/
import proofs.«104104_j72645076844628_1_alg».proof.Proof.Gen.KernelIdeal

noncomputable section

namespace Cert.KernelIdeal.Layers

open Idealize.ShloMosaic Idealize.SL.Sem Cert.KernelIdeal Cert.KernelIdeal.Gen

variable {F : FTy → Type} [FloatOps F]

/-- The edges' sources: row 0 of the edge list, then the nodes `0 … 99999` (one self loop each). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge list, then the nodes `0 … 99999`. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index below zero is moved up by the number of nodes; any other index is kept. -/
def wrapIdx (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- The degree of each node: ones added along the destinations into zeros. -/
def degOf (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := F) e)) (broadcastInDim S1700000 ![] bcast_S_S1700000 (constant S_ .f32 0x3F800000#32))

/-- The inverse square root of the degree where the degree is positive, zero elsewhere. -/
def dinvOf (e : (⟨S2x1600000, .i32⟩ : BufTy).Contents (Elt F)) : (⟨S100000, .f32⟩ : BufTy).Contents (Elt F) :=
  select (cmpf (F := F) .ogt (degOf (F := F) e) (broadcastInDim S100000 ![] bcast_S_S100000 (constant S_ .f32 0x00000000#32))) (Host.rsqrt (degOf (F := F) e)) (broadcastInDim S100000 ![] bcast_S_S100000 (id (constant S_ .f32 0x00000000#32)))

/-- The edges' weights as a column: `dinv` at the source times `dinv` at the destination. -/
def normOf (e : (⟨S2x1600000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (dinvOf (F := F) e) (broadcastInDim S1700000x1 ![0] bcast_S1700000_S1700000x1_0 (wrapIdx (F := F) (srcOf (F := F) e))))
      (Host.gather gather_S100000_S1700000x1_S1700000_n_0_n_n_0_1_1 (dinvOf (F := F) e) (broadcastInDim S1700000x1 ![0] bcast_S1700000_S1700000x1_0 (wrapIdx (F := F) (dstOf (F := F) e)))))

/-- One layer over 128 features: gather the sources' rows of `h`, scale by the weights, add along the destinations, add the bias. -/
def agg128 (h : (⟨S100000x128, .f32⟩ : BufTy).Contents (Elt F)) (src dst : (⟨S1700000, .i32⟩ : BufTy).Contents (Elt F))
    (nrm : (⟨S1700000x1, .f32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst)
      (mulf (Host.gather gather_S100000x128_S1700000x1_S1700000x128_1_0_n_n_0_1_1128 h (broadcastInDim S1700000x1 ![0] bcast_S1700000_S1700000x1_0 (wrapIdx (F := F) src))) (broadcastInDim S1700000x128 ![0, 1] bcast_S1700000x1_S1700000x128_0_1 nrm)))
    (broadcastInDim S100000x128 ![0, 1] bcast_S1x128_S100000x128_0_1 (broadcastInDim S1x128 ![1] bcast_S128_S1x128_1 b))

/-- The maximum with zero, entry by entry. -/
def relu128 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- One layer over 64 features. -/
def agg64 (h : (⟨S100000x64, .f32⟩ : BufTy).Contents (Elt F)) (src dst : (⟨S1700000, .i32⟩ : BufTy).Contents (Elt F))
    (nrm : (⟨S1700000x1, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst)
      (mulf (Host.gather gather_S100000x64_S1700000x1_S1700000x64_1_0_n_n_0_1_164 h (broadcastInDim S1700000x1 ![0] bcast_S1700000_S1700000x1_0 (wrapIdx (F := F) src))) (broadcastInDim S1700000x64 ![0, 1] bcast_S1700000x1_S1700000x64_0_1 nrm)))
    (broadcastInDim S100000x64 ![0, 1] bcast_S1x64_S100000x64_0_1 (broadcastInDim S1x64 ![1] bcast_S64_S1x64_1 b))

end Cert.KernelIdeal.Layers

end
-- ==== Proof.KernelValue.lean ====
/-
  What the kernel program's result array holds, read back through @main: the closing host operations applied to
  the second product's array, whose left factor is the first layer (the host operations between the two
  pallas_calls applied to the first product's array), all over the same sources, destinations and edge weights,
  which the opening host operations compute from the edge list alone. Stated for any float family; nothing here
  opens a product.
-/
import proofs.«104104_j72645076844628_1_alg».proof.Proof.KernelRun
import proofs.«104104_j72645076844628_1_alg».proof.Proof.Layers
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg)

/-! ## When the first pallas_call is entered -/

set_option maxHeartbeats 4000000 in
/-- The sources, from the edge list. -/
theorem W3_src (c : Dev nD) : W3 m ρ c (Proc.devRef .tc main_v3) = srcOf (F := F) (m ((c.tc : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp <;> rfl

set_option maxHeartbeats 4000000 in
/-- The destinations, from the edge list. -/
theorem W3_dst (c : Dev nD) : W3 m ρ c (Proc.devRef .tc main_v6) = dstOf (F := F) (m ((c.tc : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp <;> rfl

set_option maxHeartbeats 4000000 in
/-- The edges' weights, from the edge list. -/
theorem W3_nrm (c : Dev nD) : W3 m ρ c (Proc.devRef .tc main_v30) = normOf (F := F) (m ((c.tc : Thread nD τ).loc main_arg1)) := by
  show StableHlo.after hostOps0_2 (StableHlo.after hostOps0_1 (StableHlo.after hostOps0 (W0 m ρ c))) (Proc.devRef .tc main_v30) = _
  simp only [hostOps0, hostOps0_1, hostOps0_2]
  after_results_simp <;> rfl

/-- The first weights, narrowed. -/
theorem W3_w1 (c : Dev nD) : W3 m ρ c (Proc.devRef .tc main_v31) = truncf .bf16 (m ((c.tc : Thread nD τ).loc main_arg2)) bitsLt_bf16_f32 := by
  show StableHlo.after hostOps0_2 (StableHlo.after hostOps0_1 (StableHlo.after hostOps0 (W0 m ρ c))) (Proc.devRef .tc main_v31) = _
  simp only [hostOps0, hostOps0_1, hostOps0_2]
  after_results_simp <;> rfl

/-- The second weights, narrowed. -/
theorem W3_w2 (c : Dev nD) : W3 m ρ c (Proc.devRef .tc main_v32) = truncf .bf16 (m ((c.tc : Thread nD τ).loc main_arg4)) bitsLt_bf16_f32 := by
  show StableHlo.after hostOps0_2 (StableHlo.after hostOps0_1 (StableHlo.after hostOps0 (W0 m ρ c))) (Proc.devRef .tc main_v32) = _
  simp only [hostOps0, hostOps0_1, hostOps0_2]
  after_results_simp <;> rfl

/-- The node features are as launched. -/
theorem W3_x (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

/-- The first bias is as launched. -/
theorem W3_b1 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp <;> rfl

/-- The second bias is as launched. -/
theorem W3_b2 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

/-! ## When the first pallas_call is left: its output array is what the pipeline's write-backs leave; nothing else moved -/

/-- The first product's array. -/
theorem W4_h (c : Dev nD) : W4 m ρ c (Proc.devRef .tc main_v33) = (dat0 (V3 m ρ) c).arrAt 2 cfg0.N := W4_arr m ρ c 2
theorem W4_src (c : Dev nD) : W4 m ρ c (Proc.devRef .tc main_v3) = (srcOf (F := F) (m ((c.tc : Thread nD τ).loc main_arg1))) :=
  (W4_of_ne m ρ c main_v3 (by decide)).trans (W3_src m ρ c)
theorem W4_dst (c : Dev nD) : W4 m ρ c (Proc.devRef .tc main_v6) = (dstOf (F := F) (m ((c.tc : Thread nD τ).loc main_arg1))) :=
  (W4_of_ne m ρ c main_v6 (by decide)).trans (W3_dst m ρ c)
theorem W4_nrm (c : Dev nD) : W4 m ρ c (Proc.devRef .tc main_v30) = (normOf (F := F) (m ((c.tc : Thread nD τ).loc main_arg1))) :=
  (W4_of_ne m ρ c main_v30 (by decide)).trans (W3_nrm m ρ c)
theorem W4_w2 (c : Dev nD) : W4 m ρ c (Proc.devRef .tc main_v32) = truncf .bf16 (m ((c.tc : Thread nD τ).loc main_arg4)) bitsLt_bf16_f32 :=
  (W4_of_ne m ρ c main_v32 (by decide)).trans (W3_w2 m ρ c)
theorem W4_b1 (c : Dev nD) : W4 m ρ c (Proc.devRef .tc main_arg3) = (m ((c.tc : Thread nD τ).loc main_arg3)) :=
  (W4_of_ne m ρ c main_arg3 (by decide)).trans (W3_b1 m ρ c)
theorem W4_b2 (c : Dev nD) : W4 m ρ c (Proc.devRef .tc main_arg5) = (m ((c.tc : Thread nD τ).loc main_arg5)) :=
  (W4_of_ne m ρ c main_arg5 (by decide)).trans (W3_b2 m ρ c)

/-! ## When the second pallas_call is entered: the first layer of the first product -/

set_option maxHeartbeats 4000000 in
/-- The second product's left factor: the first layer (gather, scale, scatter-add, bias, maximum with zero) of the first product's array. -/
theorem W6_h (c : Dev nD) : W6 m ρ c (Proc.devRef .tc main_v49) = relu128 (F := F) (agg128 (F := F) ((dat0 (V3 m ρ) c).arrAt 2 cfg0.N) (srcOf (F := F) (m ((c.tc : Thread nD τ).loc main_arg1))) (dstOf (F := F) (m ((c.tc : Thread nD τ).loc main_arg1))) (normOf (F := F) (m ((c.tc : Thread nD τ).loc main_arg1))) (m ((c.tc : Thread nD τ).loc main_arg3))) := by
  show StableHlo.after hostOps1_1 (StableHlo.after hostOps1 (W4 m ρ c)) (Proc.devRef .tc main_v49) = _
  simp only [hostOps1, hostOps1_1]
  after_results_simp
  rw [W4_h, W4_src, W4_dst, W4_nrm, W4_b1]
  rfl
theorem W6_src (c : Dev nD) : W6 m ρ c (Proc.devRef .tc main_v3) = (srcOf (F := F) (m ((c.tc : Thread nD τ).loc main_arg1))) := by
  show StableHlo.after hostOps1_1 (StableHlo.after hostOps1 (W4 m ρ c)) (Proc.devRef .tc main_v3) = _
  simp only [hostOps1, hostOps1_1]
  after_results_simp
  exact W4_src m ρ c
theorem W6_dst (c : Dev nD) : W6 m ρ c (Proc.devRef .tc main_v6) = (dstOf (F := F) (m ((c.tc : Thread nD τ).loc main_arg1))) := by
  show StableHlo.after hostOps1_1 (StableHlo.after hostOps1 (W4 m ρ c)) (Proc.devRef .tc main_v6) = _
  simp only [hostOps1, hostOps1_1]
  after_results_simp
  exact W4_dst m ρ c
theorem W6_nrm (c : Dev nD) : W6 m ρ c (Proc.devRef .tc main_v30) = (normOf (F := F) (m ((c.tc : Thread nD τ).loc main_arg1))) := by
  show StableHlo.after hostOps1_1 (StableHlo.after hostOps1 (W4 m ρ c)) (Proc.devRef .tc main_v30) = _
  simp only [hostOps1, hostOps1_1]
  after_results_simp
  exact W4_nrm m ρ c
theorem W6_w2 (c : Dev nD) : W6 m ρ c (Proc.devRef .tc main_v32) = truncf .bf16 (m ((c.tc : Thread nD τ).loc main_arg4)) bitsLt_bf16_f32 := by
  show StableHlo.after hostOps1_1 (StableHlo.after hostOps1 (W4 m ρ c)) (Proc.devRef .tc main_v32) = _
  simp only [hostOps1, hostOps1_1]
  after_results_simp
  exact W4_w2 m ρ c
theorem W6_b2 (c : Dev nD) : W6 m ρ c (Proc.devRef .tc main_arg5) = (m ((c.tc : Thread nD τ).loc main_arg5)) := by
  show StableHlo.after hostOps1_1 (StableHlo.after hostOps1 (W4 m ρ c)) (Proc.devRef .tc main_arg5) = _
  simp only [hostOps1, hostOps1_1]
  after_results_simp
  exact W4_b2 m ρ c

/-! ## When the second pallas_call is left -/

/-- The second product's array. -/
theorem W7_h (c : Dev nD) : W7 m ρ c (Proc.devRef .tc main_v50) = (dat1 (V6 m ρ) c).arrAt 2 cfg1.N := W7_arr m ρ c 2
theorem W7_src (c : Dev nD) : W7 m ρ c (Proc.devRef .tc main_v3) = (srcOf (F := F) (m ((c.tc : Thread nD τ).loc main_arg1))) :=
  (W7_of_ne m ρ c main_v3 (by decide)).trans (W6_src m ρ c)
theorem W7_dst (c : Dev nD) : W7 m ρ c (Proc.devRef .tc main_v6) = (dstOf (F := F) (m ((c.tc : Thread nD τ).loc main_arg1))) :=
  (W7_of_ne m ρ c main_v6 (by decide)).trans (W6_dst m ρ c)
theorem W7_nrm (c : Dev nD) : W7 m ρ c (Proc.devRef .tc main_v30) = (normOf (F := F) (m ((c.tc : Thread nD τ).loc main_arg1))) :=
  (W7_of_ne m ρ c main_v30 (by decide)).trans (W6_nrm m ρ c)
theorem W7_b2 (c : Dev nD) : W7 m ρ c (Proc.devRef .tc main_arg5) = (m ((c.tc : Thread nD τ).loc main_arg5)) :=
  (W7_of_ne m ρ c main_arg5 (by decide)).trans (W6_b2 m ρ c)

/-! ## The result -/

set_option maxHeartbeats 4000000 in
/-- The result array: the second layer (gather, scale, scatter-add, bias) of the second product's array. -/
theorem result (c : Dev nD) : W8 m ρ c (Proc.devRef .tc main_v65) = agg64 (F := F) ((dat1 (V6 m ρ) c).arrAt 2 cfg1.N) (srcOf (F := F) (m ((c.tc : Thread nD τ).loc main_arg1))) (dstOf (F := F) (m ((c.tc : Thread nD τ).loc main_arg1))) (normOf (F := F) (m ((c.tc : Thread nD τ).loc main_arg1))) (m ((c.tc : Thread nD τ).loc main_arg5)) := by
  show StableHlo.after hostOps2 (W7 m ρ c) (Proc.devRef .tc main_v65) = _
  simp only [hostOps2]
  after_results_simp
  rw [W7_h, W7_src, W7_dst, W7_nrm, W7_b2]
  rfl

/-! ## What each pallas_call finds in its two input arrays -/

theorem V3_x (c : Dev nD) : V3 m ρ c main_arg0 = m ((c.tc : Thread nD τ).loc main_arg0) := W3_x m ρ c
theorem V3_w1 (c : Dev nD) : V3 m ρ c main_v31 = truncf .bf16 (m ((c.tc : Thread nD τ).loc main_arg2)) bitsLt_bf16_f32 := W3_w1 m ρ c
theorem V6_h (c : Dev nD) : V6 m ρ c main_v49 = relu128 (F := F) (agg128 (F := F) ((dat0 (V3 m ρ) c).arrAt 2 cfg0.N) (srcOf (F := F) (m ((c.tc : Thread nD τ).loc main_arg1))) (dstOf (F := F) (m ((c.tc : Thread nD τ).loc main_arg1))) (normOf (F := F) (m ((c.tc : Thread nD τ).loc main_arg1))) (m ((c.tc : Thread nD τ).loc main_arg3))) := W6_h m ρ c
theorem V6_w2 (c : Dev nD) : V6 m ρ c main_v32 = truncf .bf16 (m ((c.tc : Thread nD τ).loc main_arg4)) bitsLt_bf16_f32 := W6_w2 m ρ c

end Cert.KernelIdeal.KernelValue

end
-- ==== Proof.Region0.lean ====
/-
  The first dense layer, taken 2000 rows at a time.

  The array of node features has 100000 rows and 128 columns; the weights are a 128 by 128 array. The layer is
  computed in 50 steps. Step `t` takes rows `2000 t` to `2000 t + 1999` of the features (a block of 2000 rows and all
  128 columns) and the whole array of weights, forms their product with the sum over the 128 inner terms taken
  exactly, starting from zero, and writes that product over rows `2000 t` to `2000 t + 1999` of the result.

  On the extended reals the change of format before the product is the identity, and entry `(r, j)` of a block's
  product is `∑ k, block r k * w k j`. Row `r` of block `t` is row `2000 t + r` of the features, so that entry is
  entry `(2000 t + r, j)` of the product of the whole arrays: each step writes its own rows of the whole product.
  Every row `i` lies in exactly the block of step `i / 2000`, so after the 50 steps the result array holds the
  whole product and nothing else.
-/
import proofs.«104104_j72645076844628_1_alg».proof.Proof.Gen.KernelIdeal.Frame
import proofs.«104104_j72645076844628_1_alg».proof.Proof.Products
import Idealize.ShloMosaic.Lib.Pipeline.Value
import Idealize.ShloMosaic.Lib.ValueIdx
import Idealize.ShloMosaic.PureOps.Ideal.Laws

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## One block's product, entry by entry -/

/-- The left operand of the block product is read at the row of the output entry … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the column the inner sum runs over; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the row the inner sum runs over … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the column of the output entry. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(r, j)` of what one step computes from a block `x0` of 2000 rows and the weights `x1`: the change of
    format is the identity on the extended reals, the accumulator starts at zero, and the product sums
    `x0 r k * x1 k j` over the 128 values of `k`. -/
theorem block_product_apply (x0 : Vec Ideal S2000x128 .f32) (x1 : Vec Ideal S128x128 .bf16) (j : S2000x128.Idx) :
    k0_pay1 (F := Ideal) x0 x1 j = ∑ k : Fin 128, x0 (ix2 (j 0) k) * x1 (ix2 k (j 1)) := by
  unfold k0_pay1
  rw [shapeCast_self]
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ix2 (j 0) k := funext fun a => Fin.ext (by
    match a with
    | ⟨0, _⟩ => exact lhs_row _ _
    | ⟨1, _⟩ => exact (lhs_col _ _).trans hk)
  have er : dot_S2000x128_S128x128_S2000x128_1_0_0_1_n_n.rhsIdx j ((ValueIdx.contrEquiv1 dot_S2000x128_S128x128_S2000x128_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  rfl

/-! ## Which rows a step reads and writes -/

/-- The offsets of a whole-block access are all zero. -/
theorem zero_offsets : (![0, 0] : Fin 2 → Nat) = fun _ => 0 := funext fun a => by fin_cases a <;> rfl

/-- The block indices at step `t`, decided over the 50 steps: the features' block and the result's block are block
    `t` along the rows and block 0 along the columns; the weights' block is always block `(0, 0)`, the whole array. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT STEP `t` WRITES BACK is block `t` of the product of the whole arrays as the region finds them: row `r` of
    the features' block `t` is row `2000 t + r` of the features, which is the row of the result that entry `(r, j)`
    of the block is written to, and the weights' block is the whole array of weights. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Products.prod128 (V c main_arg0) (V c main_v31)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := block_indices t
  funext j
  show k0_pay1 (iblk0 V c 0 t) (iblk0 V c 1 t) j = Cert.Products.prod128 (V c main_arg0) (V c main_v31) (((cfg0.win 2).blk t).view.emb j)
  refine (block_product_apply _ _ j).trans (Finset.sum_congr rfl fun k _ => ?_)
  have h0 : @Eq EReal (iblk0 V c 0 t (ix2 (j 0) k)) (V c main_arg0 (ix2 ((((cfg0.win 2).blk t).view.emb j) 0) k)) := by
    show V c main_arg0 (((cfg0.win 0).blk t).view.emb (ix2 (j 0) k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : @Eq EReal (iblk0 V c 1 t (ix2 k (j 1))) (V c main_v31 (ix2 k ((((cfg0.win 2).blk t).view.emb j) 1))) := by
    show V c main_v31 (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-! ## The 50 blocks fill the result -/

/-- An entry of the result array is in step `t`'s block iff each of its coordinates is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Every entry of the result array is written: row `r` is in the block of step `r / 2000`, which is one of the
    50 steps because there are 100000 rows, and every step writes its block back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by
    show (i 0).val / 2000 < 50
    omega
  refine ⟨⟨(i 0).val / 2000, ht⟩, flush0_2 _, ?_⟩
  obtain ⟨-, -, -, -, e4, e5⟩ := block_indices ⟨(i 0).val / 2000, ht⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]
    omega

/-! ## The result array after the 50 steps -/

/-- After the region the result array holds the product of the features and the weights as the region found them. -/
theorem value (V : (c : Dev nD) → (b : Ref sig .tc) → Buf (Elt Ideal) ((c : Thread nD τ).loc b)) (c : Dev nD) :
    (Cert.KernelIdeal.Gen.dat0 (F := Ideal) V c).arrAt 2 cfg0.N = Cert.Products.prod128 (V c main_arg0) (V c main_v31) :=
  (dat0 (F := Ideal) V c).arrAt_eq_of_cover 2 (Cert.Products.prod128 (V c main_arg0) (V c main_v31))
    (fun t _ => flushed_eq V c t) covered

end Cert.KernelIdeal.Region0

end
-- ==== Proof.Region1.lean ====
/-
  The second dense layer, taken 2000 rows at a time.

  The array of hidden features has 100000 rows and 128 columns; the weights are a 128 by 64 array. The layer is
  computed in 50 steps. Step `t` takes rows `2000 t` to `2000 t + 1999` of the features (a block of 2000 rows and all
  128 columns) and the whole array of weights, forms their product with the sum over the 128 inner terms taken
  exactly, starting from zero, and writes that product (2000 rows, 64 columns) over rows `2000 t` to `2000 t + 1999`
  of the result, an array of 100000 rows and 64 columns.

  On the extended reals the change of format before the product is the identity, and entry `(r, j)` of a block's
  product is `∑ k, block r k * w k j`. Row `r` of block `t` is row `2000 t + r` of the features, so that entry is
  entry `(2000 t + r, j)` of the product of the whole arrays: each step writes its own rows of the whole product.
  Every row `i` lies in exactly the block of step `i / 2000`, so after the 50 steps the result array holds the
  whole product and nothing else.
-/
import proofs.«104104_j72645076844628_1_alg».proof.Proof.Gen.KernelIdeal.Frame
import proofs.«104104_j72645076844628_1_alg».proof.Proof.Products
import Idealize.ShloMosaic.Lib.Pipeline.Value
import Idealize.ShloMosaic.Lib.ValueIdx
import Idealize.ShloMosaic.PureOps.Ideal.Laws

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

/-! ## One block's product, entry by entry -/

/-- The left operand of the block product is read at the row of the output entry … -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and at the column the inner sum runs over; -/
theorem lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- the right operand at the row the inner sum runs over … -/
theorem rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and at the column of the output entry. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(r, j)` of what one step computes from a block `x0` of 2000 rows and the weights `x1`: the change of
    format is the identity on the extended reals, the accumulator starts at zero, and the product sums
    `x0 r k * x1 k j` over the 128 values of `k`. -/
theorem block_product_apply (x0 : Vec Ideal S2000x128 .f32) (x1 : Vec Ideal S128x64 .bf16) (j : S2000x64.Idx) :
    k1_pay1 (F := Ideal) x0 x1 j = ∑ k : Fin 128, x0 (ix2 (j 0) k) * x1 (ix2 k (j 1)) := by
  unfold k1_pay1
  rw [shapeCast_self, shapeCast_self]
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = ix2 (j 0) k := funext fun a => Fin.ext (by
    match a with
    | ⟨0, _⟩ => exact lhs_row _ _
    | ⟨1, _⟩ => exact (lhs_col _ _).trans hk)
  have er : dot_S2000x128_S128x64_S2000x64_1_0_0_1_n_n.rhsIdx j ((ValueIdx.contrEquiv1 dot_S2000x128_S128x64_S2000x64_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  rfl

/-! ## Which rows a step reads and writes -/

/-- The offsets of a whole-block access are all zero. -/
theorem zero_offsets : (![0, 0] : Fin 2 → Nat) = fun _ => 0 := funext fun a => by fin_cases a <;> rfl

/-- The block indices at step `t`, decided over the 50 steps: the features' block and the result's block are block
    `t` along the rows and block 0 along the columns; the weights' block is always block `(0, 0)`, the whole array. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT STEP `t` WRITES BACK is block `t` of the product of the whole arrays as the region finds them: row `r` of
    the features' block `t` is row `2000 t + r` of the features, which is the row of the result that entry `(r, j)`
    of the block is written to, and the weights' block is the whole array of weights. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Products.prod64 (V c main_v49) (V c main_v32)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x64) zero_offsets]
  obtain ⟨e0, e1, e2, e3, e4, e5⟩ := block_indices t
  funext j
  show k1_pay1 (iblk1 V c 0 t) (iblk1 V c 1 t) j = Cert.Products.prod64 (V c main_v49) (V c main_v32) (((cfg1.win 2).blk t).view.emb j)
  refine (block_product_apply _ _ j).trans (Finset.sum_congr rfl fun k _ => ?_)
  have h0 : @Eq EReal (iblk1 V c 0 t (ix2 (j 0) k)) (V c main_v49 (ix2 ((((cfg1.win 2).blk t).view.emb j) 0) k)) := by
    show V c main_v49 (((cfg1.win 0).blk t).view.emb (ix2 (j 0) k)) = _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have h1 : @Eq EReal (iblk1 V c 1 t (ix2 k (j 1))) (V c main_v32 (ix2 k ((((cfg1.win 2).blk t).view.emb j) 1))) := by
    show V c main_v32 (((cfg1.win 1).blk t).view.emb (ix2 k (j 1))) = _
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  exact congrArg₂ (fun a b : EReal => a * b) h0 h1

/-! ## The 50 blocks fill the result -/

/-- An entry of the result array is in step `t`'s block iff each of its coordinates is in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Every entry of the result array is written: row `r` is in the block of step `r / 2000`, which is one of the
    50 steps because there are 100000 rows, and every step writes its block back. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 2000 < cfg1.N := by
    show (i 0).val / 2000 < 50
    omega
  refine ⟨⟨(i 0).val / 2000, ht⟩, flush1_2 _, ?_⟩
  obtain ⟨-, -, -, -, e4, e5⟩ := block_indices ⟨(i 0).val / 2000, ht⟩
  rw [mem_block]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 64 ≤ (i 1).val ∧ (i 1).val < win1_2.index ⟨(i 0).val / 2000, ht⟩ (1 : Fin 2) * 64 + 64
    rw [e5]
    omega

/-! ## The result array after the 50 steps -/

/-- After the region the result array holds the product of the features and the weights as the region found them. -/
theorem value (V : (c : Dev nD) → (b : Ref sig .tc) → Buf (Elt Ideal) ((c : Thread nD τ).loc b)) (c : Dev nD) :
    (Cert.KernelIdeal.Gen.dat1 (F := Ideal) V c).arrAt 2 cfg1.N = Cert.Products.prod64 (V c main_v49) (V c main_v32) :=
  (dat1 (F := Ideal) V c).arrAt_eq_of_cover 2 (Cert.Products.prod64 (V c main_v49) (V c main_v32))
    (fun t _ => flushed_eq V c t) covered

end Cert.KernelIdeal.Region1

end
-- ==== Proof.RefTerm.lean ====
/-
  The reference's result, as its run states it, is the same two layers over the same sources, destinations and
  edge weights, with a whole `dot_general` where the kernel program has a pallas_call: the reference computes the
  degrees and the edge weights once per layer, from the same edge list by the same operations, so both copies are
  the one function `normOf` of the edge list. For any float family; no operation is opened.
-/
import proofs.«104104_j72645076844628_1_alg».proof.Proof.RefRun
import proofs.«104104_j72645076844628_1_alg».proof.Proof.Layers

set_option maxRecDepth 16384

noncomputable section

namespace Cert.ReferenceIdeal.RefTerm

open Idealize.ShloMosaic Idealize.SL.Sem Cert.KernelIdeal.Layers

variable {F : FTy → Type} [FloatOps F]

set_option maxHeartbeats 4000000 in
/-- The reference's result array: layer two of (the second weights applied to (layer one of (the first weights applied to the node features))). -/
theorem res_eq (m' : (ℓ : Loc Cert.ReferenceIdeal.nD Cert.ReferenceIdeal.τ Cert.ReferenceIdeal.sig) → Buf (Elt F) ℓ) (c : Dev Cert.ReferenceIdeal.nD) :
    Cert.ReferenceIdeal.RunP.res_main_v87 m' c
      = agg64 (F := F)
          (Host.dotGeneral Cert.ReferenceIdeal.dot_S100000x128_S128x64_S100000x64_1_0_0_1_n_n none
            (relu128 (F := F) (agg128 (F := F)
              (Host.dotGeneral Cert.ReferenceIdeal.dot_S100000x128_S128x128_S100000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
              (srcOf (F := F) (m' ((c.tc : Thread Cert.ReferenceIdeal.nD Cert.ReferenceIdeal.τ).loc Cert.ReferenceIdeal.main_arg1))) (dstOf (F := F) (m' ((c.tc : Thread Cert.ReferenceIdeal.nD Cert.ReferenceIdeal.τ).loc Cert.ReferenceIdeal.main_arg1))) (normOf (F := F) (m' ((c.tc : Thread Cert.ReferenceIdeal.nD Cert.ReferenceIdeal.τ).loc Cert.ReferenceIdeal.main_arg1))) (m' ((c.tc : Thread Cert.ReferenceIdeal.nD Cert.ReferenceIdeal.τ).loc Cert.ReferenceIdeal.main_arg3))))
            (m' ((c.tc : Thread Cert.ReferenceIdeal.nD Cert.ReferenceIdeal.τ).loc Cert.ReferenceIdeal.main_arg4)))
          (srcOf (F := F) (m' ((c.tc : Thread Cert.ReferenceIdeal.nD Cert.ReferenceIdeal.τ).loc Cert.ReferenceIdeal.main_arg1))) (dstOf (F := F) (m' ((c.tc : Thread Cert.ReferenceIdeal.nD Cert.ReferenceIdeal.τ).loc Cert.ReferenceIdeal.main_arg1))) (normOf (F := F) (m' ((c.tc : Thread Cert.ReferenceIdeal.nD Cert.ReferenceIdeal.τ).loc Cert.ReferenceIdeal.main_arg1))) (m' ((c.tc : Thread Cert.ReferenceIdeal.nD Cert.ReferenceIdeal.τ).loc Cert.ReferenceIdeal.main_arg5)) := by
  unfold Cert.ReferenceIdeal.RunP.res_main_v87
  rfl

end Cert.ReferenceIdeal.RefTerm

end
-- ==== Proof.RefProducts.lean ====
/-
  The reference's two `dot_general`s at the extended reals are the product functions of Products.lean: a
  `dot_general` contracting axis 1 of a `[100000, 128]` array with axis 0 of a `[128, p]` array has, at entry
  `(r, j)`, the sum over the contracted index of `x r k * w k j`.
-/
import proofs.«104104_j72645076844628_1_alg».proof.Proof.Gen.ReferenceIdeal
import proofs.«104104_j72645076844628_1_alg».proof.Proof.Products
import Idealize.ShloMosaic.Lib.ValueIdx
import Idealize.ShloMosaic.PureOps.Ideal.Laws

noncomputable section

namespace Cert.ReferenceIdeal.RefProducts

open Idealize.ShloMosaic Idealize.SL.Sem Cert.ReferenceIdeal Cert.ReferenceIdeal.Gen

/-! ### The operand indices of the 1 product, axis by axis: the left operand is read at (row of the entry, k), the right at (k, column of the entry) -/

theorem lhs1_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs1_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs1_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The reference's 1 `dot_general`, at the extended reals, is the product function: at entry `i` both are the sum
    over `k` of the left operand at `(i 0, k)` times the right at `(k, i 1)` (the contraction's one axis of extent 128
    renamed to `k : Fin 128`). -/
theorem dot1_eq (x : FVec Ideal S100000x128 .f32) (w : FVec Ideal S128x128 .f32) :
    Host.dotGeneral (F := Ideal) dot_S100000x128_S128x128_S100000x128_1_0_0_1_n_n none x w = Cert.Products.prod128 x w := by
  funext i
  simp only [Host.dotGeneral]
  rw [Ideal.dotGeneral_apply, ← Equiv.sum_comp (ValueIdx.contrEquiv1 dot_S100000x128_S128x128_S100000x128_1_0_0_1_n_n 128 rfl rfl).symm]
  show _ = ∑ k : Fin 128, x (ValueIdx.ix2 (i 0) k) * w (ValueIdx.ix2 k (i 1))
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ValueIdx.ix2 (i 0) k := funext fun a => Fin.ext (by
    match a with
    | ⟨0, _⟩ => exact lhs1_0 _ _
    | ⟨1, _⟩ => exact (lhs1_1 _ _).trans hk)
  have er : dot_S100000x128_S128x128_S100000x128_1_0_0_1_n_n.rhsIdx i ((ValueIdx.contrEquiv1 dot_S100000x128_S128x128_S100000x128_1_0_0_1_n_n 128 rfl rfl).symm k) = ValueIdx.ix2 k (i 1) := funext fun a => Fin.ext (by
    match a with
    | ⟨0, _⟩ => exact (rhs1_0 _ _).trans hk
    | ⟨1, _⟩ => exact rhs1_1 _ _)
  rw [el, er]
  rfl

/-! ### The operand indices of the 2 product, axis by axis: the left operand is read at (row of the entry, k), the right at (k, column of the entry) -/

theorem lhs2_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs2_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs2_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs2_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The reference's 2 `dot_general`, at the extended reals, is the product function: at entry `i` both are the sum
    over `k` of the left operand at `(i 0, k)` times the right at `(k, i 1)` (the contraction's one axis of extent 128
    renamed to `k : Fin 128`). -/
theorem dot2_eq (x : FVec Ideal S100000x128 .f32) (w : FVec Ideal S128x64 .f32) :
    Host.dotGeneral (F := Ideal) dot_S100000x128_S128x64_S100000x64_1_0_0_1_n_n none x w = Cert.Products.prod64 x w := by
  funext i
  simp only [Host.dotGeneral]
  rw [Ideal.dotGeneral_apply, ← Equiv.sum_comp (ValueIdx.contrEquiv1 dot_S100000x128_S128x64_S100000x64_1_0_0_1_n_n 128 rfl rfl).symm]
  show _ = ∑ k : Fin 128, x (ValueIdx.ix2 (i 0) k) * w (ValueIdx.ix2 k (i 1))
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = ValueIdx.ix2 (i 0) k := funext fun a => Fin.ext (by
    match a with
    | ⟨0, _⟩ => exact lhs2_0 _ _
    | ⟨1, _⟩ => exact (lhs2_1 _ _).trans hk)
  have er : dot_S100000x128_S128x64_S100000x64_1_0_0_1_n_n.rhsIdx i ((ValueIdx.contrEquiv1 dot_S100000x128_S128x64_S100000x64_1_0_0_1_n_n 128 rfl rfl).symm k) = ValueIdx.ix2 k (i 1) := funext fun a => Fin.ext (by
    match a with
    | ⟨0, _⟩ => exact (rhs2_0 _ _).trans hk
    | ⟨1, _⟩ => exact rhs2_1 _ _)
  rw [el, er]
  rfl

end Cert.ReferenceIdeal.RefProducts

end
-- ==== Proof.lean ====
/-
  A two-layer graph convolution: `out = Â · relu(Â · (x W1) + b1) · W2 + b2`, where `Â` gathers each edge's source
  row, scales it by `deg^(-1/2)(src) · deg^(-1/2)(dst)` and adds it into the edge's destination row (self loops
  included). The kernel program takes each of the two products `x W1` and `h W2` 2000 rows at a time (the rows and
  the weights narrowed to bf16 first, the accumulator f32 and zero) and does everything else on the host; the
  reference takes the two products whole and does the same host operations.

  On the extended reals a narrowing is the identity and a product's entry is the sum of 128 products of entries,
  whichever rows are taken together: block `t` of the kernel's output is rows `2000 t … 2000 t + 1999` of the whole
  product, and the fifty blocks tile the array (Region0, Region1 over Products). So both programs end with

      layer2 (prod64 (relu (layer1 (prod128 x W1))) W2)

  over the same sources, destinations and edge weights (Layers; the reference forms the weights twice, by the same
  operations from the same edge list). No law of the extended reals beyond the value of a `dot_general` and of a
  matrix product as that sum is used, and the inputs' finiteness is not needed: the two sides are the same sums.
  The idealization rewrote no operation, so `preserves` has nothing to state.
-/
import proofs.«104104_j72645076844628_1_alg».proof.Defs
import proofs.«104104_j72645076844628_1_alg».proof.Proof.Gen.Kernel
import proofs.«104104_j72645076844628_1_alg».proof.Proof.Gen.Kernel.Frame
import proofs.«104104_j72645076844628_1_alg».proof.Proof.Gen.KernelIdeal
import proofs.«104104_j72645076844628_1_alg».proof.Proof.Gen.KernelIdeal.Frame
import proofs.«104104_j72645076844628_1_alg».proof.Proof.Gen.ReferenceIdeal
import proofs.«104104_j72645076844628_1_alg».proof.Proof.Gen.Pre_finite_inputs
import proofs.«104104_j72645076844628_1_alg».proof.Proof.Products
import proofs.«104104_j72645076844628_1_alg».proof.Proof.Layers
import proofs.«104104_j72645076844628_1_alg».proof.Proof.KernelRun
import proofs.«104104_j72645076844628_1_alg».proof.Proof.KernelValue
import proofs.«104104_j72645076844628_1_alg».proof.Proof.Region0
import proofs.«104104_j72645076844628_1_alg».proof.Proof.Region1
import proofs.«104104_j72645076844628_1_alg».proof.Proof.RefRun
import proofs.«104104_j72645076844628_1_alg».proof.Proof.RefTerm
import proofs.«104104_j72645076844628_1_alg».proof.Proof.RefProducts
import Idealize.ShloMosaic.Adequacy
import Idealize.ShloMosaic.Init

set_option maxRecDepth 16384

noncomputable section

namespace Cert.Proof

open Idealize.ShloMosaic Idealize.ShloMosaic.TcCoe Idealize.SL.Sem Cert.KernelIdeal.Layers

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
/-- The reference has no pallas_call: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)
theorem preserves : Cert.preserves_Kernel_KernelIdeal := trivial

/-! ## The value both programs end with -/

/-- Layer two of the second product of (the maximum with zero of layer one of the first product), on the extended reals. -/
def out (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v65) :=
  agg64 (F := Ideal)
    (Cert.Products.prod64
      (relu128 (F := Ideal) (agg128 (F := Ideal) (Cert.Products.prod128 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
        (srcOf (F := Ideal) (m ((c.tc : Thread Cert.KernelIdeal.nD Cert.KernelIdeal.τ).loc Cert.KernelIdeal.main_arg1))) (dstOf (F := Ideal) (m ((c.tc : Thread Cert.KernelIdeal.nD Cert.KernelIdeal.τ).loc Cert.KernelIdeal.main_arg1))) (normOf (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg3))))
      (m ((c.tc : Thread Cert.KernelIdeal.nD Cert.KernelIdeal.τ).loc Cert.KernelIdeal.main_arg4)))
    (srcOf (F := Ideal) (m ((c.tc : Thread Cert.KernelIdeal.nD Cert.KernelIdeal.τ).loc Cert.KernelIdeal.main_arg1))) (dstOf (F := Ideal) (m ((c.tc : Thread Cert.KernelIdeal.nD Cert.KernelIdeal.τ).loc Cert.KernelIdeal.main_arg1))) (normOf (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg5))

/-- The kernel program's result array holds `out`: each pallas_call's array is the whole product of what it found in
    its two input arrays, and a narrowing is the identity on the extended reals. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W8 m ρ c (Proc.devRef .tc Cert.KernelIdeal.main_v65) = out m c := by
  rw [Cert.KernelIdeal.KernelValue.result, Cert.KernelIdeal.Region1.value, Cert.KernelIdeal.KernelValue.V6_h, Cert.KernelIdeal.KernelValue.V6_w2,
    Cert.KernelIdeal.Region0.value, Cert.KernelIdeal.KernelValue.V3_x, Cert.KernelIdeal.KernelValue.V3_w1]
  rfl

/-- The reference's result array holds `out` of the kernel's arguments when its own arguments agree with them. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RunP.res_main_v87 m' c = out m c := by
  rw [Cert.ReferenceIdeal.RefTerm.res_eq, Cert.ReferenceIdeal.RefProducts.dot1_eq, Cert.ReferenceIdeal.RefProducts.dot2_eq, h0, h1, h2, h3, h4, h5]
  rfl

/-! ## The claims -/

/-- From memories agreeing on the six arguments both programs run, and both result arrays hold `out`. -/
theorem algebraic : Cert.algebraic_KernelIdeal_ReferenceIdeal := by
  intro m ρ m' ρ' _ hagree
  refine ⟨fun c => out m c, ?_, ?_⟩
  · exact (θ_run Cert.KernelIdeal.defs _ _).mono (fun _ h c => ⟨(h c).1.trans (kernel_value m ρ c), (h c).2⟩)
      (Cert.KernelIdeal.GenP.run_named (F := Ideal) m ρ)
  · refine (θ_run Cert.ReferenceIdeal.defs _ _).mono (fun _ h c => ⟨(h c).1.trans ?_, (h c).2⟩) (Cert.ReferenceIdeal.RunP.run (F := Ideal) m' ρ')
    obtain ⟨h0, h1, h2, h3, h4, h5⟩ := hagree c
    exact reference_value m m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
